-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S96x32 : Shape := ⟨2, ![96, 32]⟩
abbrev S32 : Shape := ⟨1, ![32]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S96x32 .f32) (main_arg5 : FVec F S96x32 .f32) (main_arg6 : FVec F S32 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x32 .f32 := Host.absf main_arg4
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S96x32 .f32 := Host.absf main_arg5
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x96 .f32) (main_arg1 : FVec F S96x96 .f32) (main_arg2 : FVec F S96x96 .f32) (main_arg3 : FVec F S96 .f32) (main_arg4 : FVec F S96x32 .f32) (main_arg5 : FVec F S96x32 .f32) (main_arg6 : FVec F S32 .f32) (main_arg7 : IVec S800000 32) (main_arg8 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_v13 main_v16
-- ==== Kernel.lean ====
abbrev S50000x96 : Shape := ⟨2, ![50000, 96]⟩
abbrev S96x96 : Shape := ⟨2, ![96, 96]⟩
abbrev S96 : Shape := ⟨1, ![96]⟩
abbrev S96x32 : Shape := ⟨2, ![96, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S2000x96 : Shape := ⟨2, ![2000, 96]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 57
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S96x32, .f32⟩
  | .hbm, ⟨6, _⟩ => ⟨S32, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x96, .f32⟩
  | .hbm, ⟨30, _⟩ => ⟨S_, .f32⟩
  | .hbm, ⟨31, _⟩ => ⟨S50000x96, .f32⟩
  | .hbm, ⟨32, _⟩ => ⟨S800000x1, .i32⟩
  | .hbm, ⟨33, _⟩ => ⟨S50000x96, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x96, .f32⟩
  | .hbm, ⟨38, _⟩ => ⟨S50000x96, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x96, .f32⟩
  | .hbm, ⟨48, _⟩ => ⟨S_, .f32⟩
  | .hbm, ⟨49, _⟩ => ⟨S50000x96, .f32⟩
  | .hbm, ⟨50, _⟩ => ⟨S800000x1, .i32⟩
  | .hbm, ⟨51, _⟩ => ⟨S50000x96, .f32⟩
  | .hbm, ⟨52, _⟩ => ⟨S50000x1, .f32⟩
  | .hbm, ⟨53, _⟩ => ⟨S50000x96, .f32⟩
  | .hbm, ⟨54, _⟩ => ⟨S50000x96, .f32⟩
  | .hbm, ⟨55, _⟩ => ⟨S1x32, .f32⟩
  | .hbm, ⟨56, _⟩ => ⟨S50000x32, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S96x96, .f32⟩
  | .local _ .vmem, ⟨5, _⟩ => ⟨S96x96, .f32⟩
  | .local _ .vmem, ⟨6, _⟩ => ⟨S1x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S96x32, .f32⟩
  | .local _ .vmem, ⟨14, _⟩ => ⟨S96x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S96_S1x96 : S96.ShapeCasts S1x96
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  shapeCasts_S32_S1x32 : S32.ShapeCasts S1x32
  inb_S96x32_S96x32_0_0 : ∀ a, (![0, 0] : Fin 2 → Nat) a + S96x32.size a ≤ S96x32.size a
  h_S96x32 : 0 < S96x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  dot_S2000x96_S96x32_S2000x32_1_0_0_1_n_n_wf : DotDims.WF S2000x96 S96x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x32.size a ≤ S96x32.size a
  hwx1_2 : ∀ i : grid1.Coords, EltTy.bits .f32 = 32 ∨ (Rect.block (s := S96x32) S96x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x32.size a ≤ S96x32.size a
  hwx1_3 : ∀ i : grid1.Coords, EltTy.bits .f32 = 32 ∨ (Rect.block (s := S96x32) S96x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x32_S2000x32_1_0_0_1_n_n : DotDims S2000x96 S96x32 S2000x32 where
  lhsContracting := [1]
  rhsContracting := [0]
  lhsNonContracting := [0]
  rhsNonContracting := [1]
  lhsBatch := []
  rhsBatch := []
  wf := dot_S2000x96_S96x32_S2000x32_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S96x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S96x32 : Shape := ⟨2, ![96, 32]⟩
abbrev S32 : Shape := ⟨1, ![32]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S50000x32 : Shape := ⟨2, ![50000, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S96x32, .f32⟩
  | .hbm, ⟨6, _⟩ => ⟨S32, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S1x96, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S_, .f32⟩
  | .hbm, ⟨54, _⟩ => ⟨S50000x96, .f32⟩
  | .hbm, ⟨55, _⟩ => ⟨S800000x1, .i32⟩
  | .hbm, ⟨56, _⟩ => ⟨S50000x96, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x96, .f32⟩
  | .hbm, ⟨69, _⟩ => ⟨S50000x96, .f32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | .hbm, ⟨74, _⟩ => ⟨S50000x32, .f32⟩
  | .hbm, ⟨75, _⟩ => ⟨S50000x32, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  dot_S50000x96_S96x32_S50000x32_1_0_0_1_n_n_wf : DotDims.WF S50000x96 S96x32 S50000x32 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf

class Facts : Prop extends Facts₀ where

variable [Facts]
-- ==== Proof.TileValue.lean ====
/-
  Each SAGE update multiplies a tile of 2000 nodes by two small weight matrices on the matrix unit, adds the two
  products and a bias row, and (first layer only) clamps below at zero. Over the extended reals the rounding of the
  operands to bf16 is the identity and a product into a zero accumulator is the plain sum over the 96 contracted
  features, so one stored entry (r, j) of a tile is

      (Σₖ x[r,k]·Wself[k,j]) + (Σₖ h[r,k]·Wneigh[k,j]) + b[j]        (clamped at 0 in layer 1).

  This module proves that reading for both layers' bodies, over arbitrary tiles.
-/
import proofs.«141597_j16329465660094_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.Sage

open Cert.KernelIdeal Cert.KernelIdeal.Gen

/-! ## Layer 1's matrix product on one tile of 2000 nodes: entry (r, j) is row r of the tile against column j of the weights -/

theorem tile96_lhs_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem tile96_lhs_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
theorem tile96_rhs_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
theorem tile96_rhs_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The matrix unit's product into a zero accumulator, at one entry of the tile: the sum over the 96 input
    features of (row r of the tile) times (column j of the weights). -/
theorem tile96_dot (x : FVec Ideal S2000x96 .bf16) (w : FVec Ideal S96x96 .bf16) (r : Fin 2000) (j : Fin 96) :
    matmul dot_S2000x96_S96x96_S2000x96_1_0_0_1_n_n none x w (constant S2000x96 .f32 0x00000000#32) (ix2 r j)
      = ∑ k : Fin 96, x (ix2 r k) * w (ix2 k j) := by
  unfold matmul
  rw [Ideal.matmul_constant_zero_apply, ← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 r j) ((contrEquiv1 dot_S2000x96_S96x96_S2000x96_1_0_0_1_n_n 96 rfl rfl).symm k) = ix2 r k := funext fun a => Fin.ext (by
    match a with
    | ⟨0, _⟩ => exact tile96_lhs_0 _ _
    | ⟨1, _⟩ => exact (tile96_lhs_1 _ _).trans hk)
  have er : dot_S2000x96_S96x96_S2000x96_1_0_0_1_n_n.rhsIdx (ix2 r j) ((contrEquiv1 dot_S2000x96_S96x96_S2000x96_1_0_0_1_n_n 96 rfl rfl).symm k) = ix2 k j := funext fun a => Fin.ext (by
    match a with
    | ⟨0, _⟩ => exact (tile96_rhs_0 _ _).trans hk
    | ⟨1, _⟩ => exact tile96_rhs_1 _ _)
  rw [el, er]

/-- What layer 1's body stores at entry (r, j) of its tile: the node's own features against the self weights, plus
    its averaged neighbour features against the neighbour weights, plus the bias of output feature j, clamped below
    at zero. (Rounding the operands to bf16 changes nothing over the reals.) -/
theorem body1_at (x0 x1 : Vec Ideal S2000x96 .f32) (x2 x3 : Vec Ideal S96x96 .f32) (x4 : Vec Ideal S1x96 .f32) (r : Fin 2000) (j : Fin 96) :
    k0_pay1 x0 x1 x2 x3 x4 (ix2 r j)
      = max (((∑ k : Fin 96, x0 (ix2 r k) * x2 (ix2 k j)) + ∑ k : Fin 96, x1 (ix2 r k) * x3 (ix2 k j)) + x4 (ix2 0 j))
          (Ideal.ofBits .f32 0x00000000#32) := by
  unfold k0_pay1
  rw [maximumf_apply, addf_apply, addf_apply, tile96_dot, tile96_dot]
  have hb : broadcastTo S2000x96 (shapeCast S1x96 x4 shapeCasts_S1x96_S1x96) broadcasts_S1x96_S2000x96 (ix2 r j) = x4 (ix2 0 j) := by
    rw [shapeCast_self]
    exact broadcastTo_apply x4 broadcasts_S1x96_S2000x96 (ix2 r j) (ix2 0 j) (fun a => by
      match a with
      | ⟨0, _⟩ => rfl
      | ⟨1, _⟩ => rfl)
  rw [hb]
  simp only [shapeCast_self]
  rfl

/-! ## Layer 2's matrix product on one tile: 96 hidden features in, 32 output features out -/

theorem tile32_lhs_0 (i : S2000x32.Idx) (q : dot_S2000x96_S96x32_S2000x32_1_0_0_1_n_n.contr.Idx) :
    (dot_S2000x96_S96x32_S2000x32_1_0_0_1_n_n.lhsIdx i q 0).val = (i 0).val := by
  unfold DotDims.lhsIdx
  rw [dif_neg (show ¬(0 : Fin S2000x96.rank) ∈ dot_S2000x96_S96x32_S2000x32_1_0_0_1_n_n.lhsBatch by decide), dif_pos (show (0 : Fin S2000x96.rank) ∈ dot_S2000x96_S96x32_S2000x32_1_0_0_1_n_n.lhsNonContracting by decide)]
  rfl
theorem tile32_lhs_1 (i : S2000x32.Idx) (q : dot_S2000x96_S96x32_S2000x32_1_0_0_1_n_n.contr.Idx) :
    (dot_S2000x96_S96x32_S2000x32_1_0_0_1_n_n.lhsIdx i q 1).val = (q ⟨0, by decide⟩).val :=
  dot_S2000x96_S96x32_S2000x32_1_0_0_1_n_n.lhsIdx_val_of_single rfl i q
theorem tile32_rhs_0 (i : S2000x32.Idx) (q : dot_S2000x96_S96x32_S2000x32_1_0_0_1_n_n.contr.Idx) :
    (dot_S2000x96_S96x32_S2000x32_1_0_0_1_n_n.rhsIdx i q 0).val = (q ⟨0, by decide⟩).val :=
  dot_S2000x96_S96x32_S2000x32_1_0_0_1_n_n.rhsIdx_val_of_single rfl i q
theorem tile32_rhs_1 (i : S2000x32.Idx) (q : dot_S2000x96_S96x32_S2000x32_1_0_0_1_n_n.contr.Idx) :
    (dot_S2000x96_S96x32_S2000x32_1_0_0_1_n_n.rhsIdx i q 1).val = (i 1).val := by
  unfold DotDims.rhsIdx
  rw [dif_neg (show ¬(1 : Fin S96x32.rank) ∈ dot_S2000x96_S96x32_S2000x32_1_0_0_1_n_n.rhsBatch by decide), dif_pos (show (1 : Fin S96x32.rank) ∈ dot_S2000x96_S96x32_S2000x32_1_0_0_1_n_n.rhsNonContracting by decide)]
  rfl

/-- The same product at one entry of a 2000 × 32 tile: the sum over the 96 hidden features of (row r of the tile)
    times (column j of the weights). -/
theorem tile32_dot (x : FVec Ideal S2000x96 .bf16) (w : FVec Ideal S96x32 .bf16) (r : Fin 2000) (j : Fin 32) :
    matmul dot_S2000x96_S96x32_S2000x32_1_0_0_1_n_n none x w (constant S2000x32 .f32 0x00000000#32) (ix2 r j)
      = ∑ k : Fin 96, x (ix2 r k) * w (ix2 k j) := by
  unfold matmul
  rw [Ideal.matmul_constant_zero_apply, ← Equiv.sum_comp (contrEquiv1 dot_S2000x96_S96x32_S2000x32_1_0_0_1_n_n 96 rfl rfl).symm]
  refine Finset.sum_congr rfl fun k _ => ?_
  have hk := contrEquiv1_symm_val dot_S2000x96_S96x32_S2000x32_1_0_0_1_n_n 96 rfl rfl k
  have el : dot_S2000x96_S96x32_S2000x32_1_0_0_1_n_n.lhsIdx (ix2 r j) ((contrEquiv1 dot_S2000x96_S96x32_S2000x32_1_0_0_1_n_n 96 rfl rfl).symm k) = ix2 r k := funext fun a => Fin.ext (by
    match a with
    | ⟨0, _⟩ => exact tile32_lhs_0 _ _
    | ⟨1, _⟩ => exact (tile32_lhs_1 _ _).trans hk)
  have er : dot_S2000x96_S96x32_S2000x32_1_0_0_1_n_n.rhsIdx (ix2 r j) ((contrEquiv1 dot_S2000x96_S96x32_S2000x32_1_0_0_1_n_n 96 rfl rfl).symm k) = ix2 k j := funext fun a => Fin.ext (by
    match a with
    | ⟨0, _⟩ => exact (tile32_rhs_0 _ _).trans hk
    | ⟨1, _⟩ => exact tile32_rhs_1 _ _)
  rw [el, er]

/-- What layer 2's body stores at entry (r, j) of its tile: the node's hidden features against the self weights, plus
    its averaged neighbour hidden features against the neighbour weights, plus the bias of output feature j (no clamp
    on the last layer). -/
theorem body2_at (x0 x1 : Vec Ideal S2000x96 .f32) (x2 x3 : Vec Ideal S96x32 .f32) (x4 : Vec Ideal S1x32 .f32) (r : Fin 2000) (j : Fin 32) :
    k1_pay1 x0 x1 x2 x3 x4 (ix2 r j)
      = ((∑ k : Fin 96, x0 (ix2 r k) * x2 (ix2 k j)) + ∑ k : Fin 96, x1 (ix2 r k) * x3 (ix2 k j)) + x4 (ix2 0 j) := by
  unfold k1_pay1
  rw [addf_apply, addf_apply, tile32_dot, tile32_dot]
  have hb : broadcastTo S2000x32 (shapeCast S1x32 x4 shapeCasts_S1x32_S1x32) broadcasts_S1x32_S2000x32 (ix2 r j) = x4 (ix2 0 j) := by
    rw [shapeCast_self]
    exact broadcastTo_apply x4 broadcasts_S1x32_S2000x32 (ix2 r j) (ix2 0 j) (fun a => by
      match a with
      | ⟨0, _⟩ => rfl
      | ⟨1, _⟩ => rfl)
  rw [hb]
  simp only [shapeCast_self]
  rfl

end Cert.KernelIdeal.Sage

end
-- ==== Proof.Layer1Array.lean ====
/-
  The first pallas_call runs layer 1 tile by tile: grid point t stages rows 2000·t … 2000·t + 1999 of the node
  features and of the averaged neighbour features, the two 96 × 96 weight matrices and the bias row whole, and
  writes back rows 2000·t … of the output. Since every tile is the restriction of ONE function of the whole arrays
  (entry (n, j) depends only on row n of the two feature arrays), and the 25 tiles cover all 50000 nodes, the output
  array after the call is that function of the arrays the call found — whatever they are.
-/
import proofs.«141597_j16329465660094_1_alg».proof.Proof.Gen.KernelIdeal.Frame
import proofs.«141597_j16329465660094_1_alg».proof.Proof.TileValue
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Sage

open Cert.KernelIdeal Cert.KernelIdeal.Gen

variable (V : (c : Dev nD) → (b : Ref sig .tc) → Buf (Elt Ideal) ((c : Thread nD τ).loc b))

/-- A block that starts at the origin of its buffer. -/
theorem origin2 : (![0, 0] : Fin 2 → Nat) = fun _ => 0 := funext fun a => by fin_cases a <;> rfl

/-- Layer 1 over all 50000 nodes at once. -/
def update1 (X H : Vec Ideal S50000x96 .f32) (Ws Wn : Vec Ideal S96x96 .f32) (B : Vec Ideal S1x96 .f32) : Vec Ideal S50000x96 .f32 :=
  fun i => max (((∑ k : Fin 96, X (ix2 (i 0) k) * Ws (ix2 k (i 1))) + ∑ k : Fin 96, H (ix2 (i 0) k) * Wn (ix2 k (i 1))) + B (ix2 0 (i 1)))
    (Ideal.ofBits .f32 0x00000000#32)

/-- The printed index maps over the 25 grid points: the two node-feature windows and the output move with the tile
    number along the nodes; the weights and the bias stay at block (0, 0). -/
theorem maps1 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of tile t is node 2000·t + r. -/
def nodeOf (t : Fin cfg0.N) (r : Fin 2000) : Fin 50000 :=
  ⟨2000 * t.val + r.val, by have h : t.val < 25 := lt_of_lt_of_eq t.isLt N_0; have := r.isLt; omega⟩

/-- Layer 1 at node n, output feature j. -/
theorem update1_at (X H : Vec Ideal S50000x96 .f32) (Ws Wn : Vec Ideal S96x96 .f32) (B : Vec Ideal S1x96 .f32) (n : Fin 50000) (j : Fin 96) :
    update1 X H Ws Wn B (ix2 n j)
      = max (((∑ k : Fin 96, X (ix2 n k) * Ws (ix2 k j)) + ∑ k : Fin 96, H (ix2 n k) * Wn (ix2 k j)) + B (ix2 0 j)) (Ideal.ofBits .f32 0x00000000#32) := rfl

/-- Each staged block read at an entry is the array it stages read at the matching entry. -/
theorem tile1_self (c : Dev nD) (t : Fin cfg0.N) (r : Fin 2000) (k : Fin 96) :
    iblk0 V c 0 t (ix2 r k) = V c main_arg0 (ix2 (nodeOf t r) k) := by
  obtain ⟨e0, e1, -⟩ := maps1 t
  show V c main_arg0 (((cfg0.win 0).blk t).view.emb (ix2 r k)) = _
  refine congrArg (V c main_arg0) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 96 + 1 * k.val = k.val; rw [e1]; omega

theorem tile1_neigh (c : Dev nD) (t : Fin cfg0.N) (r : Fin 2000) (k : Fin 96) :
    iblk0 V c 1 t (ix2 r k) = V c main_v20 (ix2 (nodeOf t r) k) := by
  obtain ⟨-, -, e0, e1, -⟩ := maps1 t
  show V c main_v20 (((cfg0.win 1).blk t).view.emb (ix2 r k)) = _
  refine congrArg (V c main_v20) (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 96 + 1 * k.val = k.val; rw [e1]; omega

theorem tile1_wself (c : Dev nD) (t : Fin cfg0.N) (k j : Fin 96) :
    iblk0 V c 2 t (ix2 k j) = V c main_arg1 (ix2 k j) := by
  obtain ⟨-, -, -, -, e0, e1, -⟩ := maps1 t
  show V c main_arg1 (((cfg0.win 2).blk t).view.emb (ix2 k j)) = _
  refine congrArg (V c main_arg1) (funext fun a => Fin.ext ?_)
  match a with
  | ⟨0, _⟩ => show win0_2.index t (0 : Fin 2) * 96 + 1 * k.val = k.val; rw [e0]; omega
  | ⟨1, _⟩ => show win0_2.index t (1 : Fin 2) * 96 + 1 * j.val = j.val; rw [e1]; omega

theorem tile1_wneigh (c : Dev nD) (t : Fin cfg0.N) (k j : Fin 96) :
    iblk0 V c 3 t (ix2 k j) = V c main_arg2 (ix2 k j) := by
  obtain ⟨-, -, -, -, -, -, e0, e1, -⟩ := maps1 t
  show V c main_arg2 (((cfg0.win 3).blk t).view.emb (ix2 k j)) = _
  refine congrArg (V c main_arg2) (funext fun a => Fin.ext ?_)
  match a with
  | ⟨0, _⟩ => show win0_3.index t (0 : Fin 2) * 96 + 1 * k.val = k.val; rw [e0]; omega
  | ⟨1, _⟩ => show win0_3.index t (1 : Fin 2) * 96 + 1 * j.val = j.val; rw [e1]; omega

theorem tile1_bias (c : Dev nD) (t : Fin cfg0.N) (j : Fin 96) :
    iblk0 V c 4 t (ix2 0 j) = V c main_v21 (ix2 0 j) := by
  obtain ⟨-, -, -, -, -, -, -, -, e0, e1, -⟩ := maps1 t
  show V c main_v21 (((cfg0.win 4).blk t).view.emb (ix2 0 j)) = _
  refine congrArg (V c main_v21) (funext fun a => Fin.ext ?_)
  match a with
  | ⟨0, _⟩ => show win0_4.index t (0 : Fin 2) * 1 + 1 * 0 = 0; rw [e0]
  | ⟨1, _⟩ => show win0_4.index t (1 : Fin 2) * 96 + 1 * j.val = j.val; rw [e1]; omega

theorem tile1_out (t : Fin cfg0.N) (r : Fin 2000) (j : Fin 96) :
    ((cfg0.win 5).blk t).view.emb (ix2 r j) = ix2 (nodeOf t r) j := by
  obtain ⟨-, -, -, -, -, -, -, -, -, -, e0, e1⟩ := maps1 t
  refine funext fun a => Fin.ext ?_
  match a with
  | ⟨0, _⟩ => show win0_5.index t (0 : Fin 2) * 2000 + 1 * r.val = 2000 * t.val + r.val; rw [e0]; omega
  | ⟨1, _⟩ => show win0_5.index t (1 : Fin 2) * 96 + 1 * j.val = j.val; rw [e1]; omega

/-- What point t writes back is tile t of layer 1 over the whole graph. -/
theorem tile1_written (c : Dev nD) (t : Fin cfg0.N) :
    (dat0 V c).flushed 5 t = ((cfg0.win 5).blk t).view.read (Elt Ideal) (update1 (V c main_arg0) (V c main_v20) (V c main_arg1) (V c main_arg2) (V c main_v21)) := by
  show (cfg0.win 5).cut (grid0.coords t) ((dat0 V c).after 5 t) = _
  rw [after0_5]
  unfold out0_5
  rw [View.canon_unit_zero origin2]
  simp only [View.ld_unit_zero (S := S2000x96) origin2, View.ld_unit_zero (S := S96x96) origin2, View.ld_unit_zero (S := S1x96) origin2]
  funext y
  obtain ⟨r, j, rfl⟩ : ∃ (r : Fin 2000) (j : Fin 96), y = ix2 r j := ⟨y 0, y 1, eq_ix2 y⟩
  show k0_pay1 (iblk0 V c 0 t) (iblk0 V c 1 t) (iblk0 V c 2 t) (iblk0 V c 3 t) (iblk0 V c 4 t) (ix2 r j)
    = update1 (V c main_arg0) (V c main_v20) (V c main_arg1) (V c main_arg2) (V c main_v21) (((cfg0.win 5).blk t).view.emb (ix2 r j))
  refine (body1_at (iblk0 V c 0 t) (iblk0 V c 1 t) (iblk0 V c 2 t) (iblk0 V c 3 t) (iblk0 V c 4 t) r j).trans ?_
  rw [tile1_out, update1_at]
  simp only [tile1_self, tile1_neigh, tile1_wself, tile1_wneigh, tile1_bias]

/-- Which nodes tile t holds: rows 2000·t … 2000·t + 1999, all 96 features. -/
theorem in_tile1 (t : Fin cfg0.N) (i : S50000x96.Idx) :
    i ∈ ((cfg0.win 5).blk t).view.set ↔ ∀ a : Fin 2, win0_5.index t a * S2000x96.size a ≤ (i a).val ∧ (i a).val < win0_5.index t a * S2000x96.size a + S2000x96.size a := by
  show i ∈ ((View.whole main_v22).slice (win0_5.rect t)).set ↔ _
  rw [View.set_slice_whole, Rect.mem_set_unit]
  exact Iff.rfl

/-- The 25 tiles cover the graph: node n lies in tile n / 2000. -/
theorem tiles1_cover (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  have hq : (i 0).val / 2000 < 25 := by omega
  let t : Fin cfg0.N := ⟨(i 0).val / 2000, lt_of_lt_of_eq hq N_0.symm⟩
  have ht : t.val = (i 0).val / 2000 := rfl
  obtain ⟨-, -, -, -, -, -, -, -, -, -, e0, e1⟩ := maps1 t
  refine ⟨t, flush0_5 t, ?_⟩
  rw [in_tile1]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 96 ≤ (i 1).val ∧ (i 1).val < win0_5.index t (1 : Fin 2) * 96 + 96; rw [e1]; omega

/-- After the first pallas_call its output array holds layer 1 of the arrays the call found. -/
theorem layer1_array (c : Dev nD) :
    (dat0 V c).arrAt 5 cfg0.N = update1 (V c main_arg0) (V c main_v20) (V c main_arg1) (V c main_arg2) (V c main_v21) :=
  (dat0 V c).arrAt_eq_of_cover 5 _ (fun t _ => tile1_written V c t) tiles1_cover

end Cert.KernelIdeal.Sage

end
-- ==== Proof.Layer2Array.lean ====
/-
  The second pallas_call runs layer 2 the same way over the hidden features: tiles of 2000 nodes, 96 hidden features
  in, 32 output features out, no clamp. Again every tile is the restriction of one function of the whole arrays and
  the 25 tiles cover the 50000 nodes, so the result array after the call is that function of the arrays the call found.
-/
import proofs.«141597_j16329465660094_1_alg».proof.Proof.Gen.KernelIdeal.Frame
import proofs.«141597_j16329465660094_1_alg».proof.Proof.TileValue
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Sage

open Cert.KernelIdeal Cert.KernelIdeal.Gen

variable (V : (c : Dev nD) → (b : Ref sig .tc) → Buf (Elt Ideal) ((c : Thread nD τ).loc b))

/-- A block that starts at the origin of its buffer. -/
theorem atOrigin : (![0, 0] : Fin 2 → Nat) = fun _ => 0 := funext fun a => by fin_cases a <;> rfl

/-- Layer 2 over all 50000 nodes at once. -/
def update2 (X H : Vec Ideal S50000x96 .f32) (Ws Wn : Vec Ideal S96x32 .f32) (B : Vec Ideal S1x32 .f32) : Vec Ideal S50000x32 .f32 :=
  fun i => ((∑ k : Fin 96, X (ix2 (i 0) k) * Ws (ix2 k (i 1))) + ∑ k : Fin 96, H (ix2 (i 0) k) * Wn (ix2 k (i 1))) + B (ix2 0 (i 1))

/-- The printed index maps over the 25 grid points: the two hidden-feature windows and the output move with the tile
    number along the nodes; the weights and the bias stay at block (0, 0). -/
theorem maps2 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of tile t is node 2000·t + r. -/
def nodeOf2 (t : Fin cfg1.N) (r : Fin 2000) : Fin 50000 :=
  ⟨2000 * t.val + r.val, by have h : t.val < 25 := lt_of_lt_of_eq t.isLt N_1; have := r.isLt; omega⟩

/-- Layer 2 at node n, output feature j. -/
theorem update2_at (X H : Vec Ideal S50000x96 .f32) (Ws Wn : Vec Ideal S96x32 .f32) (B : Vec Ideal S1x32 .f32) (n : Fin 50000) (j : Fin 32) :
    update2 X H Ws Wn B (ix2 n j)
      = ((∑ k : Fin 96, X (ix2 n k) * Ws (ix2 k j)) + ∑ k : Fin 96, H (ix2 n k) * Wn (ix2 k j)) + B (ix2 0 j) := rfl

/-- Each staged block read at an entry is the array it stages read at the matching entry. -/
theorem tile2_self (c : Dev nD) (t : Fin cfg1.N) (r : Fin 2000) (k : Fin 96) :
    iblk1 V c 0 t (ix2 r k) = V c main_v22 (ix2 (nodeOf2 t r) k) := by
  obtain ⟨e0, e1, -⟩ := maps2 t
  show V c main_v22 (((cfg1.win 0).blk t).view.emb (ix2 r k)) = _
  refine congrArg (V c main_v22) (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 96 + 1 * k.val = k.val; rw [e1]; omega

theorem tile2_neigh (c : Dev nD) (t : Fin cfg1.N) (r : Fin 2000) (k : Fin 96) :
    iblk1 V c 1 t (ix2 r k) = V c main_v35 (ix2 (nodeOf2 t r) k) := by
  obtain ⟨-, -, e0, e1, -⟩ := maps2 t
  show V c main_v35 (((cfg1.win 1).blk t).view.emb (ix2 r k)) = _
  refine congrArg (V c main_v35) (funext fun a => Fin.ext ?_)
  match a with
  | ⟨0, _⟩ => show win1_1.index t (0 : Fin 2) * 2000 + 1 * r.val = 2000 * t.val + r.val; rw [e0]; omega
  | ⟨1, _⟩ => show win1_1.index t (1 : Fin 2) * 96 + 1 * k.val = k.val; rw [e1]; omega

theorem tile2_wself (c : Dev nD) (t : Fin cfg1.N) (k : Fin 96) (j : Fin 32) :
    iblk1 V c 2 t (ix2 k j) = V c main_arg4 (ix2 k j) := by
  obtain ⟨-, -, -, -, e0, e1, -⟩ := maps2 t
  show V c main_arg4 (((cfg1.win 2).blk t).view.emb (ix2 k j)) = _
  refine congrArg (V c main_arg4) (funext fun a => Fin.ext ?_)
  match a with
  | ⟨0, _⟩ => show win1_2.index t (0 : Fin 2) * 96 + 1 * k.val = k.val; rw [e0]; omega
  | ⟨1, _⟩ => show win1_2.index t (1 : Fin 2) * 32 + 1 * j.val = j.val; rw [e1]; omega

theorem tile2_wneigh (c : Dev nD) (t : Fin cfg1.N) (k : Fin 96) (j : Fin 32) :
    iblk1 V c 3 t (ix2 k j) = V c main_arg5 (ix2 k j) := by
  obtain ⟨-, -, -, -, -, -, e0, e1, -⟩ := maps2 t
  show V c main_arg5 (((cfg1.win 3).blk t).view.emb (ix2 k j)) = _
  refine congrArg (V c main_arg5) (funext fun a => Fin.ext ?_)
  match a with
  | ⟨0, _⟩ => show win1_3.index t (0 : Fin 2) * 96 + 1 * k.val = k.val; rw [e0]; omega
  | ⟨1, _⟩ => show win1_3.index t (1 : Fin 2) * 32 + 1 * j.val = j.val; rw [e1]; omega

theorem tile2_bias (c : Dev nD) (t : Fin cfg1.N) (j : Fin 32) :
    iblk1 V c 4 t (ix2 0 j) = V c main_v36 (ix2 0 j) := by
  obtain ⟨-, -, -, -, -, -, -, -, e0, e1, -⟩ := maps2 t
  show V c main_v36 (((cfg1.win 4).blk t).view.emb (ix2 0 j)) = _
  refine congrArg (V c main_v36) (funext fun a => Fin.ext ?_)
  match a with
  | ⟨0, _⟩ => show win1_4.index t (0 : Fin 2) * 1 + 1 * 0 = 0; rw [e0]
  | ⟨1, _⟩ => show win1_4.index t (1 : Fin 2) * 32 + 1 * j.val = j.val; rw [e1]; omega

theorem tile2_out (t : Fin cfg1.N) (r : Fin 2000) (j : Fin 32) :
    ((cfg1.win 5).blk t).view.emb (ix2 r j) = ix2 (nodeOf2 t r) j := by
  obtain ⟨-, -, -, -, -, -, -, -, -, -, e0, e1⟩ := maps2 t
  refine funext fun a => Fin.ext ?_
  match a with
  | ⟨0, _⟩ => show win1_5.index t (0 : Fin 2) * 2000 + 1 * r.val = 2000 * t.val + r.val; rw [e0]; omega
  | ⟨1, _⟩ => show win1_5.index t (1 : Fin 2) * 32 + 1 * j.val = j.val; rw [e1]; omega

/-- What point t writes back is tile t of layer 2 over the whole graph. -/
theorem tile2_written (c : Dev nD) (t : Fin cfg1.N) :
    (dat1 V c).flushed 5 t = ((cfg1.win 5).blk t).view.read (Elt Ideal) (update2 (V c main_v22) (V c main_v35) (V c main_arg4) (V c main_arg5) (V c main_v36)) := by
  show (cfg1.win 5).cut (grid1.coords t) ((dat1 V c).after 5 t) = _
  rw [after1_5]
  unfold out1_5
  rw [View.canon_unit_zero atOrigin]
  simp only [View.ld_unit_zero (S := S2000x96) atOrigin, View.ld_unit_zero (S := S96x32) atOrigin, View.ld_unit_zero (S := S1x32) atOrigin]
  funext y
  obtain ⟨r, j, rfl⟩ : ∃ (r : Fin 2000) (j : Fin 32), y = ix2 r j := ⟨y 0, y 1, eq_ix2 y⟩
  show k1_pay1 (iblk1 V c 0 t) (iblk1 V c 1 t) (iblk1 V c 2 t) (iblk1 V c 3 t) (iblk1 V c 4 t) (ix2 r j)
    = update2 (V c main_v22) (V c main_v35) (V c main_arg4) (V c main_arg5) (V c main_v36) (((cfg1.win 5).blk t).view.emb (ix2 r j))
  refine (body2_at (iblk1 V c 0 t) (iblk1 V c 1 t) (iblk1 V c 2 t) (iblk1 V c 3 t) (iblk1 V c 4 t) r j).trans ?_
  rw [tile2_out, update2_at]
  simp only [tile2_self, tile2_neigh, tile2_wself, tile2_wneigh, tile2_bias]

/-- Which nodes tile t holds: rows 2000·t … 2000·t + 1999, all 32 output features. -/
theorem in_tile2 (t : Fin cfg1.N) (i : S50000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v37).slice (win1_5.rect t)).set ↔ _
  rw [View.set_slice_whole, Rect.mem_set_unit]
  exact Iff.rfl

/-- The 25 tiles cover the graph: node n lies in tile n / 2000. -/
theorem tiles2_cover (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hq : (i 0).val / 2000 < 25 := by omega
  let t : Fin cfg1.N := ⟨(i 0).val / 2000, lt_of_lt_of_eq hq N_1.symm⟩
  have ht : t.val = (i 0).val / 2000 := rfl
  obtain ⟨-, -, -, -, -, -, -, -, -, -, e0, e1⟩ := maps2 t
  refine ⟨t, flush1_5 t, ?_⟩
  rw [in_tile2]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 32 ≤ (i 1).val ∧ (i 1).val < win1_5.index t (1 : Fin 2) * 32 + 32; rw [e1]; omega

/-- After the second pallas_call the result array holds layer 2 of the arrays the call found. -/
theorem layer2_array (c : Dev nD) :
    (dat1 V c).arrAt 5 cfg1.N = update2 (V c main_v22) (V c main_v35) (V c main_arg4) (V c main_arg5) (V c main_v36) :=
  (dat1 V c).arrAt_eq_of_cover 5 _ (fun t _ => tile2_written V c t) tiles2_cover

end Cert.KernelIdeal.Sage

end
-- ==== Proof.Entry1.lean ====
/-
  The host side of the kernel's program before its first pallas_call: the in-degrees and their clamped reciprocals
  (computed once), the gather / scatter-add of the node features along the edges, the scaling of each node's edge sum
  by its reciprocal, and the bias reshaped to a row. This module names those stages and reads, off the launch memory,
  what each buffer the first call stages holds when the call is entered. The gather and the scatter-add stay closed.
-/
import proofs.«141597_j16329465660094_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)
open scoped BigOperators

namespace Cert.KernelIdeal.Sage

open Cert.KernelIdeal Cert.KernelIdeal.Gen

variable {F : FTy → Type} [FloatOps F]

/-- Sum over the edges into each node of the source node's feature row (an edge's source counted from the end when
    negative): gather the rows at the sources, scatter-add them at the destinations. -/
def edgeSumK (x : (⟨S50000x96, .f32⟩ : BufTy).Contents (Elt F)) (src dst : (⟨S800000, .i32⟩ : BufTy).Contents (Elt F)) : (⟨S50000x96, .f32⟩ : BufTy).Contents (Elt F) :=
  Host.scatterAdd scatter_S50000x96_S800000x1_S800000x96_1_0_0_1 (broadcastInDim S50000x96 ![] bcast_S_S50000x96 (constant S_ .f32 0x00000000#32)) (broadcastInDim S800000x1 ![0] bcast_S800000_S800000x1_0 dst) (Host.gather gather_S50000x96_S800000x1_S800000x96_1_0_n_n_0_1_196 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- Each node's in-degree: a one scattered and added per edge at its destination. -/
def inDegK (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- The reciprocal 1 / max(in-degree, 1), computed once and used by both layers. -/
def invDegK (dst : (⟨S800000, .i32⟩ : BufTy).Contents (Elt F)) : (⟨S50000, .f32⟩ : BufTy).Contents (Elt F) :=
  Host.divf (broadcastInDim S50000 ![] bcast_S_S50000 (constant S_ .f32 0x3F800000#32)) (maximumf (inDegK dst) (broadcastInDim S50000 ![] bcast_S_S50000 (constant S_ .f32 0x3F800000#32)))

/-- The neighbour mean as the kernel takes it: the edge sum TIMES a per-node reciprocal, row by row. -/
def scaleRows (s : (⟨S50000x96, .f32⟩ : BufTy).Contents (Elt F)) (inv : (⟨S50000, .f32⟩ : BufTy).Contents (Elt F)) : (⟨S50000x96, .f32⟩ : BufTy).Contents (Elt F) :=
  mulf s (broadcastInDim S50000x96 ![0, 1] bcast_S50000x1_S50000x96_0_1 (broadcastInDim S50000x1 ![0] bcast_S50000_S50000x1_0 inv))

variable (m : (ℓ : Loc nD τ sig) → Buf (Elt F) ℓ) (ρ : Dev nD → PrngReg)

/-! ## What the first pallas_call finds -/

set_option maxHeartbeats 4000000 in
/-- The averaged neighbour features: each node's edge sum times its reciprocal clamped degree. -/
theorem entry1_mean (c : Dev nD) : V1 m ρ c main_v20
    = scaleRows (edgeSumK (m ((c : Thread nD τ).loc main_arg0)) (m ((c : Thread nD τ).loc main_arg7)) (m ((c : Thread nD τ).loc main_arg8))) (invDegK (m ((c : Thread nD τ).loc main_arg8))) := by
  show StableHlo.after hostOps0 (W0 m ρ c) (Proc.devRef .tc main_v20) = _
  after_results_simp
  rfl

set_option maxHeartbeats 4000000 in
/-- The first layer's bias as a 1 × 96 row. -/
theorem entry1_bias (c : Dev nD) : V1 m ρ c main_v21 = shapeCast S1x96 (m ((c : Thread nD τ).loc main_arg3)) shapeCasts_S96_S1x96 := by
  show StableHlo.after hostOps0 (W0 m ρ c) (Proc.devRef .tc main_v21) = _
  after_results_simp
  rfl

set_option maxHeartbeats 4000000 in
/-- The reciprocal clamped degrees, which the second layer's host side reads again. -/
theorem entry1_inv (c : Dev nD) : W1 m ρ c (Proc.devRef .tc main_v7) = invDegK (m ((c : Thread nD τ).loc main_arg8)) := by
  show StableHlo.after hostOps0 (W0 m ρ c) (Proc.devRef .tc main_v7) = _
  after_results_simp
  rfl

/-! No host operation writes an argument array. -/

set_option maxHeartbeats 4000000 in
theorem entry1_arg0 (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
theorem entry1_arg1 (c : Dev nD) : W1 m ρ c (Proc.devRef .tc main_arg1) = m ((c : Thread nD τ).loc main_arg1) := by
  show StableHlo.after hostOps0 (W0 m ρ c) (Proc.devRef .tc main_arg1) = _
  after_results_simp

set_option maxHeartbeats 4000000 in
theorem entry1_arg2 (c : Dev nD) : W1 m ρ c (Proc.devRef .tc main_arg2) = m ((c : Thread nD τ).loc main_arg2) := by
  show StableHlo.after hostOps0 (W0 m ρ c) (Proc.devRef .tc main_arg2) = _
  after_results_simp

set_option maxHeartbeats 4000000 in
theorem entry1_arg4 (c : Dev nD) : W1 m ρ c (Proc.devRef .tc main_arg4) = m ((c : Thread nD τ).loc main_arg4) := by
  show StableHlo.after hostOps0 (W0 m ρ c) (Proc.devRef .tc main_arg4) = _
  after_results_simp

set_option maxHeartbeats 4000000 in
theorem entry1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 4000000 in
theorem entry1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem entry1_arg7 (c : Dev nD) : W1 m ρ c (Proc.devRef .tc main_arg7) = m ((c : Thread nD τ).loc main_arg7) := by
  show StableHlo.after hostOps0 (W0 m ρ c) (Proc.devRef .tc main_arg7) = _
  after_results_simp

set_option maxHeartbeats 4000000 in
theorem entry1_arg8 (c : Dev nD) : W1 m ρ c (Proc.devRef .tc main_arg8) = m ((c : Thread nD τ).loc main_arg8) := by
  show StableHlo.after hostOps0 (W0 m ρ c) (Proc.devRef .tc main_arg8) = _
  after_results_simp

end Cert.KernelIdeal.Sage

end
-- ==== Proof.Entry2.lean ====
/-
  Between the two pallas_calls. The first call changes only its output array (which then holds layer 1's hidden
  features); every other buffer is as it was entered. The host operations that follow gather / scatter-add the HIDDEN
  features along the same edges, scale by the same reciprocal degrees and reshape the second bias. This module reads
  what each buffer the second call stages holds when that call is entered, in terms of what the first call left.
-/
import proofs.«141597_j16329465660094_1_alg».proof.Proof.Gen.KernelIdeal.Frame
import proofs.«141597_j16329465660094_1_alg».proof.Proof.Entry1
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)
open scoped BigOperators

namespace Cert.KernelIdeal.Sage

open Cert.KernelIdeal Cert.KernelIdeal.Gen

variable {F : FTy → Type} [FloatOps F]
variable (m : (ℓ : Loc nD τ sig) → Buf (Elt F) ℓ) (ρ : Dev nD → PrngReg)

/-! ## What the first pallas_call leaves -/

/-- Its output array holds what its write-backs leave. -/
theorem exit1_hidden (c : Dev nD) : W2 m ρ c (Proc.devRef .tc main_v22) = (dat0 (V1 m ρ) c).arrAt 5 cfg0.N :=
  W2_arr m ρ c 5

/-- The reciprocal degrees are not one of its arrays: untouched. -/
theorem exit1_inv (c : Dev nD) : W2 m ρ c (Proc.devRef .tc main_v7) = invDegK (m ((c : Thread nD τ).loc main_arg8)) :=
  (W2_of_ne m ρ c main_v7 (by decide)).trans (entry1_inv m ρ c)

theorem exit1_arg4 (c : Dev nD) : W2 m ρ c (Proc.devRef .tc main_arg4) = m ((c : Thread nD τ).loc main_arg4) :=
  (W2_of_ne m ρ c main_arg4 (by decide)).trans (entry1_arg4 m ρ c)

theorem exit1_arg5 (c : Dev nD) : W2 m ρ c (Proc.devRef .tc main_arg5) = m ((c : Thread nD τ).loc main_arg5) :=
  (W2_of_ne m ρ c main_arg5 (by decide)).trans (entry1_arg5 m ρ c)

theorem exit1_arg6 (c : Dev nD) : W2 m ρ c (Proc.devRef .tc main_arg6) = m ((c : Thread nD τ).loc main_arg6) :=
  (W2_of_ne m ρ c main_arg6 (by decide)).trans (entry1_arg6 m ρ c)

theorem exit1_arg7 (c : Dev nD) : W2 m ρ c (Proc.devRef .tc main_arg7) = m ((c : Thread nD τ).loc main_arg7) :=
  (W2_of_ne m ρ c main_arg7 (by decide)).trans (entry1_arg7 m ρ c)

theorem exit1_arg8 (c : Dev nD) : W2 m ρ c (Proc.devRef .tc main_arg8) = m ((c : Thread nD τ).loc main_arg8) :=
  (W2_of_ne m ρ c main_arg8 (by decide)).trans (entry1_arg8 m ρ c)

/-! ## What the second pallas_call finds -/

set_option maxHeartbeats 4000000 in
/-- The averaged neighbour HIDDEN features: the same edge sum and scaling, applied to what the first call left. -/
theorem entry2_mean (c : Dev nD) : V3 m ρ c main_v35
    = scaleRows (edgeSumK (W2 m ρ c (Proc.devRef .tc main_v22)) (W2 m ρ c (Proc.devRef .tc main_arg7)) (W2 m ρ c (Proc.devRef .tc main_arg8)))
        (W2 m ρ c (Proc.devRef .tc main_v7)) := by
  show StableHlo.after hostOps1 (W2 m ρ c) (Proc.devRef .tc main_v35) = _
  after_results_simp
  rfl

set_option maxHeartbeats 4000000 in
/-- The second layer's bias as a 1 × 32 row. -/
theorem entry2_bias (c : Dev nD) : V3 m ρ c main_v36 = shapeCast S1x32 (W2 m ρ c (Proc.devRef .tc main_arg6)) shapeCasts_S32_S1x32 := by
  show StableHlo.after hostOps1 (W2 m ρ c) (Proc.devRef .tc main_v36) = _
  after_results_simp
  rfl

set_option maxHeartbeats 4000000 in
/-- No host operation in between writes the hidden features. -/
theorem entry2_hidden (c : Dev nD) : V3 m ρ c main_v22 = W2 m ρ c (Proc.devRef .tc main_v22) := by
  show StableHlo.after hostOps1 (W2 m ρ c) (Proc.devRef .tc main_v22) = _
  after_results_simp

set_option maxHeartbeats 4000000 in
theorem entry2_arg4 (c : Dev nD) : V3 m ρ c main_arg4 = W2 m ρ c (Proc.devRef .tc main_arg4) := by
  show StableHlo.after hostOps1 (W2 m ρ c) (Proc.devRef .tc main_arg4) = _
  after_results_simp

set_option maxHeartbeats 4000000 in
theorem entry2_arg5 (c : Dev nD) : V3 m ρ c main_arg5 = W2 m ρ c (Proc.devRef .tc main_arg5) := by
  show StableHlo.after hostOps1 (W2 m ρ c) (Proc.devRef .tc main_arg5) = _
  after_results_simp

end Cert.KernelIdeal.Sage

end
-- ==== Proof.KernelValue.lean ====
/-
  The kernel's program, end to end. The run leaves in the result buffer what the second pallas_call's write-backs
  fold to. Reading backwards: that is layer 2 of what the call found; what it found is the hidden features the first
  call left (layer 1 of what IT found), their neighbour mean over the same edges with the same reciprocal degrees, the
  second layer's weights and its bias as a row; and what the first call found is the launch arrays, their neighbour
  mean, the first layer's weights and its bias as a row. So the result is a fixed function of the nine arguments.
-/
import proofs.«141597_j16329465660094_1_alg».proof.Proof.KernelRun
import proofs.«141597_j16329465660094_1_alg».proof.Proof.Layer1Array
import proofs.«141597_j16329465660094_1_alg».proof.Proof.Layer2Array
import proofs.«141597_j16329465660094_1_alg».proof.Proof.Entry2

set_option maxRecDepth 16384

noncomputable section

open Idealize.ShloMosaic Idealize.ShloMosaic.TcCoe Idealize.ShloMosaic.ValueIdx Idealize.SL.Sem
open scoped BigOperators

namespace Cert.KernelIdeal.Sage

open Cert.KernelIdeal Cert.KernelIdeal.Gen

variable (m : (ℓ : Loc nD τ sig) → Buf (Elt Ideal) ℓ) (ρ : Dev nD → PrngReg)

/-- After the first pallas_call the hidden features are layer 1 of the launch arrays, the neighbour mean taken the
    kernel's way (edge sum times reciprocal clamped degree). -/
theorem hidden_is (c : Dev nD) : W2 m ρ c (Proc.devRef .tc main_v22) = (update1 (m ((c : Thread nD τ).loc main_arg0)) (scaleRows (edgeSumK (m ((c : Thread nD τ).loc main_arg0)) (m ((c : Thread nD τ).loc main_arg7)) (m ((c : Thread nD τ).loc main_arg8))) (invDegK (m ((c : Thread nD τ).loc main_arg8)))) (m ((c : Thread nD τ).loc main_arg1)) (m ((c : Thread nD τ).loc main_arg2)) (shapeCast S1x96 (m ((c : Thread nD τ).loc main_arg3)) shapeCasts_S96_S1x96)) := by
  have h0 : V1 m ρ c main_arg0 = m ((c : Thread nD τ).loc main_arg0) := entry1_arg0 m ρ c
  have h1 : V1 m ρ c main_arg1 = m ((c : Thread nD τ).loc main_arg1) := entry1_arg1 m ρ c
  have h2 : V1 m ρ c main_arg2 = m ((c : Thread nD τ).loc main_arg2) := entry1_arg2 m ρ c
  rw [exit1_hidden, layer1_array (V1 m ρ) c, entry1_mean, entry1_bias, h0, h1, h2]

/-- After the second pallas_call the result buffer is layer 2 of the hidden features, their neighbour mean taken the
    same way over the same edges. -/
theorem result_is (c : Dev nD) : W4 m ρ c (Proc.devRef .tc main_v37)
    = update2 (update1 (m ((c : Thread nD τ).loc main_arg0)) (scaleRows (edgeSumK (m ((c : Thread nD τ).loc main_arg0)) (m ((c : Thread nD τ).loc main_arg7)) (m ((c : Thread nD τ).loc main_arg8))) (invDegK (m ((c : Thread nD τ).loc main_arg8)))) (m ((c : Thread nD τ).loc main_arg1)) (m ((c : Thread nD τ).loc main_arg2)) (shapeCast S1x96 (m ((c : Thread nD τ).loc main_arg3)) shapeCasts_S96_S1x96))
        (scaleRows (edgeSumK (update1 (m ((c : Thread nD τ).loc main_arg0)) (scaleRows (edgeSumK (m ((c : Thread nD τ).loc main_arg0)) (m ((c : Thread nD τ).loc main_arg7)) (m ((c : Thread nD τ).loc main_arg8))) (invDegK (m ((c : Thread nD τ).loc main_arg8)))) (m ((c : Thread nD τ).loc main_arg1)) (m ((c : Thread nD τ).loc main_arg2)) (shapeCast S1x96 (m ((c : Thread nD τ).loc main_arg3)) shapeCasts_S96_S1x96)) (m ((c : Thread nD τ).loc main_arg7)) (m ((c : Thread nD τ).loc main_arg8))) (invDegK (m ((c : Thread nD τ).loc main_arg8))))
        (m ((c : Thread nD τ).loc main_arg4)) (m ((c : Thread nD τ).loc main_arg5)) (shapeCast S1x32 (m ((c : Thread nD τ).loc main_arg6)) shapeCasts_S32_S1x32) := by
  have g4 : V3 m ρ c main_arg4 = m ((c : Thread nD τ).loc main_arg4) := (entry2_arg4 m ρ c).trans (exit1_arg4 m ρ c)
  have g5 : V3 m ρ c main_arg5 = m ((c : Thread nD τ).loc main_arg5) := (entry2_arg5 m ρ c).trans (exit1_arg5 m ρ c)
  refine (W4_arr m ρ c 5).trans ?_
  rw [layer2_array (V3 m ρ) c, entry2_hidden, entry2_mean, entry2_bias, g4, g5, exit1_arg6, exit1_arg7, exit1_arg8, exit1_inv, hidden_is]

end Cert.KernelIdeal.Sage

end
-- ==== Proof.RefForm.lean ====
/-
  The reference, stage by stage. Its result is two SAGE layers, each fed the neighbour mean of its own input:

      mean(x)[n, :]  = (Σ over edges e into n of x[src e, :]) / max(1, indegree n)
      layer(x)[n, j] = (Σₖ x[n,k]·Wself[k,j] + b[j]) + Σₖ mean(x)[n,k]·Wneigh[k,j]      (clamped at 0 after layer 1)

  The gather and the scatter-add are kept as one function of their operands (`edgeSum`, `inDeg`): both programs apply
  the same one to the same edge lists, so nothing here ever looks inside them. The matrix products are read at an
  entry as plain sums over the 96 contracted features.
-/
import proofs.«141597_j16329465660094_1_alg».proof.Proof.Gen.ReferenceIdeal.Run
import proofs.«141597_j16329465660094_1_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx Idealize.SL.Sem Idealize.ShloMosaic.StableHlo
open scoped BigOperators

namespace Cert.ReferenceIdeal.Sage

open Cert.ReferenceIdeal Cert.ReferenceIdeal.Gen Cert.ReferenceIdeal.Read

variable {F : FTy → Type} [FloatOps F]

/-- Sum over the edges into each node of the source node's feature row (an edge's source counted from the end when
    negative): gather the rows at the sources, scatter-add them at the destinations. -/
def edgeSum (x : (⟨S50000x96, .f32⟩ : BufTy).Contents (Elt F)) (src dst : (⟨S800000, .i32⟩ : BufTy).Contents (Elt F)) : (⟨S50000x96, .f32⟩ : BufTy).Contents (Elt F) :=
  Host.scatterAdd scatter_S50000x96_S800000x1_S800000x96_1_0_0_1 (broadcastInDim S50000x96 ![] bcast_S_S50000x96 (constant S_ .f32 0x00000000#32)) (broadcastInDim S800000x1 ![0] bcast_S800000_S800000x1_0 dst) (Host.gather gather_S50000x96_S800000x1_S800000x96_1_0_n_n_0_1_196 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- Each node's in-degree: a one scattered and added per edge at its destination. -/
def inDeg (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- The neighbour mean as the reference takes it: the edge sum DIVIDED by max(1, in-degree), row by row. -/
def meanRef (x : (⟨S50000x96, .f32⟩ : BufTy).Contents (Elt F)) (src dst : (⟨S800000, .i32⟩ : BufTy).Contents (Elt F)) : (⟨S50000x96, .f32⟩ : BufTy).Contents (Elt F) :=
  Host.divf (edgeSum x src dst) (broadcastInDim S50000x96 ![0, 1] bcast_S50000x1_S50000x96_0_1 (broadcastInDim S50000x1 ![0] bcast_S50000_S50000x1_0 (maximumf (broadcastInDim S50000 ![] bcast_S_S50000 (id (constant S_ .f32 0x3F800000#32))) (inDeg dst))))

/-- Layer 1 as the reference spells it: (x·Wself + b) + h·Wneigh, clamped below at zero. -/
def sage1Ref (x h : (⟨S50000x96, .f32⟩ : BufTy).Contents (Elt F)) (Ws Wn : (⟨S96x96, .f32⟩ : BufTy).Contents (Elt F)) (b : (⟨S96, .f32⟩ : BufTy).Contents (Elt F)) : (⟨S50000x96, .f32⟩ : BufTy).Contents (Elt F) :=
  maximumf (addf (addf (val_main_v18 x Ws) (val_main_v20 b)) (val_main_v18 h Wn)) (broadcastInDim S50000x96 ![] bcast_S_S50000x96 (constant S_ .f32 0x00000000#32))

/-- Layer 2 as the reference spells it: (x·Wself + b) + h·Wneigh. -/
def sage2Ref (x h : (⟨S50000x96, .f32⟩ : BufTy).Contents (Elt F)) (Ws Wn : (⟨S96x32, .f32⟩ : BufTy).Contents (Elt F)) (b : (⟨S32, .f32⟩ : BufTy).Contents (Elt F)) : (⟨S50000x32, .f32⟩ : BufTy).Contents (Elt F) :=
  addf (addf (Host.dotGeneral dot_S50000x96_S96x32_S50000x32_1_0_0_1_n_n none x Ws) (val_main_v45 b)) (Host.dotGeneral dot_S50000x96_S96x32_S50000x32_1_0_0_1_n_n none h Wn)

/-- The reference program: two layers, each fed the neighbour mean of its own input. -/
def twoLayers (x : (⟨S50000x96, .f32⟩ : BufTy).Contents (Elt F)) (W1 W2 : (⟨S96x96, .f32⟩ : BufTy).Contents (Elt F)) (b1 : (⟨S96, .f32⟩ : BufTy).Contents (Elt F)) (W4 W5 : (⟨S96x32, .f32⟩ : BufTy).Contents (Elt F)) (b2 : (⟨S32, .f32⟩ : BufTy).Contents (Elt F))
    (src dst : (⟨S800000, .i32⟩ : BufTy).Contents (Elt F)) : (⟨S50000x32, .f32⟩ : BufTy).Contents (Elt F) :=
  sage2Ref (sage1Ref x (meanRef x src dst) W1 W2 b1) (meanRef (sage1Ref x (meanRef x src dst) W1 W2 b1) src dst) W4 W5 b2

/-- The reference's result is that composition of the arguments. -/
theorem result_is (m : (ℓ : Loc nD τ sig) → Buf (Elt F) ℓ) (c : Dev nD) :
    Cert.ReferenceIdeal.Value.res_main_v48 m c
      = twoLayers (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v48 twoLayers sage2Ref sage1Ref meanRef edgeSum inDeg val_main_v18 val_main_v20 val_main_v19 val_main_v45 val_main_v44
  rfl

/-! ## The reference's layers read at one node and one output feature (over the extended reals) -/

theorem self96_rows (n : Fin 50000) (j k : Fin 96) : lidx_main_v18 (ix2 n j) k = ix2 n k :=
  funext fun a => Fin.ext (by match a with | ⟨0, _⟩ => rfl | ⟨1, _⟩ => rfl)
theorem self96_cols (n : Fin 50000) (j k : Fin 96) : ridx_main_v18 (ix2 n j) k = ix2 k j :=
  funext fun a => Fin.ext (by match a with | ⟨0, _⟩ => rfl | ⟨1, _⟩ => rfl)
theorem bias96_at (n : Fin 50000) (j : Fin 96) : idx_main_v19 (idx_main_v20 (ix2 n j)) = ix1 j :=
  funext fun a => Fin.ext (by match a with | ⟨0, _⟩ => rfl)
theorem bias32_at (n : Fin 50000) (j : Fin 32) : idx_main_v44 (idx_main_v45 (ix2 n j)) = ix1 j :=
  funext fun a => Fin.ext (by match a with | ⟨0, _⟩ => rfl)

/-- Layer 1 of the reference at node n, output feature j. -/
theorem sage1Ref_at (x h : (⟨S50000x96, .f32⟩ : BufTy).Contents (Elt Ideal)) (Ws Wn : (⟨S96x96, .f32⟩ : BufTy).Contents (Elt Ideal)) (b : (⟨S96, .f32⟩ : BufTy).Contents (Elt Ideal)) (n : Fin 50000) (j : Fin 96) :
    sage1Ref (F := Ideal) x h Ws Wn b (ix2 n j)
      = max (((∑ k : Fin 96, x (ix2 n k) * Ws (ix2 k j)) + b (ix1 j)) + ∑ k : Fin 96, h (ix2 n k) * Wn (ix2 k j))
          (Ideal.ofBits .f32 0x00000000#32) := by
  unfold sage1Ref
  rw [maximumf_apply, addf_apply, addf_apply, val_main_v18_apply, val_main_v18_apply, val_main_v20_apply, val_main_v19_apply]
  simp only [self96_rows, self96_cols, bias96_at]
  rfl

/-- The host's product of the hidden features with a 96 × 32 weight matrix, at node n and output feature j: the sum
    over the 96 hidden features. -/
theorem dot32_at (x : FVec Ideal S50000x96 .f32) (w : FVec Ideal S96x32 .f32) (n : Fin 50000) (j : Fin 32) :
    Host.dotGeneral (F := Ideal) dot_S50000x96_S96x32_S50000x32_1_0_0_1_n_n none x w (ix2 n j) = ∑ k : Fin 96, x (ix2 n k) * w (ix2 k j) := by
  simp only [Host.dotGeneral]
  rw [Ideal.dotGeneral_apply, ← Equiv.sum_comp (contrEquiv1 dot_S50000x96_S96x32_S50000x32_1_0_0_1_n_n 96 rfl rfl).symm]
  refine Finset.sum_congr rfl fun k _ => ?_
  have hk := contrEquiv1_symm_val dot_S50000x96_S96x32_S50000x32_1_0_0_1_n_n 96 rfl rfl k
  have el : dot_S50000x96_S96x32_S50000x32_1_0_0_1_n_n.lhsIdx (ix2 n j) ((contrEquiv1 dot_S50000x96_S96x32_S50000x32_1_0_0_1_n_n 96 rfl rfl).symm k) = ix2 n k := funext fun a => Fin.ext (by
    match a with
    | ⟨0, _⟩ => exact lhs_main_v43_0 _ _
    | ⟨1, _⟩ => exact (lhs_main_v43_1 _ _).trans hk)
  have er : dot_S50000x96_S96x32_S50000x32_1_0_0_1_n_n.rhsIdx (ix2 n j) ((contrEquiv1 dot_S50000x96_S96x32_S50000x32_1_0_0_1_n_n 96 rfl rfl).symm k) = ix2 k j := funext fun a => Fin.ext (by
    match a with
    | ⟨0, _⟩ => exact (rhs_main_v43_0 _ _).trans hk
    | ⟨1, _⟩ => exact rhs_main_v43_1 _ _)
  rw [el, er]

/-- Layer 2 of the reference at node n, output feature j. -/
theorem sage2Ref_at (x h : (⟨S50000x96, .f32⟩ : BufTy).Contents (Elt Ideal)) (Ws Wn : (⟨S96x32, .f32⟩ : BufTy).Contents (Elt Ideal)) (b : (⟨S32, .f32⟩ : BufTy).Contents (Elt Ideal)) (n : Fin 50000) (j : Fin 32) :
    sage2Ref (F := Ideal) x h Ws Wn b (ix2 n j)
      = ((∑ k : Fin 96, x (ix2 n k) * Ws (ix2 k j)) + b (ix1 j)) + ∑ k : Fin 96, h (ix2 n k) * Wn (ix2 k j) := by
  unfold sage2Ref
  rw [addf_apply, addf_apply, dot32_at, dot32_at, val_main_v45_apply, val_main_v44_apply, bias32_at]

end Cert.ReferenceIdeal.Sage

end
-- ==== Proof.SageLaws.lean ====
/-
  The two scalar facts that join the kernel's arithmetic to the reference's over the extended reals.

  The kernel forms 1 / max(deg, 1) once and MULTIPLIES each edge sum by it; the reference DIVIDES each edge sum by
  max(1, deg). Division by d ≠ 0 is the product with d⁻¹, on every extended real (the infinities included), so
  x / d = x · (1 / d) whenever d ≠ 0; and max(deg, 1) ≥ 1 > 0 whatever deg is. No finiteness of the inputs is used.
-/
import Idealize.ShloMosaic.PureOps.Ideal
import Idealize.ShloMosaic.Lib.IdealHost

noncomputable section

namespace Cert.SageLaws

open Idealize.ShloMosaic

/-- Dividing by a nonzero extended real is multiplying by its reciprocal. -/
theorem div_eq_mul_one_div (x d : EReal) (hd : d ≠ 0) : Ideal.div x d = x * Ideal.div 1 d := by
  unfold Ideal.div
  rw [if_neg hd, if_neg hd, one_mul]

/-- A degree clamped below at one is not zero. -/
theorem clamp_ne_zero (s : EReal) : max s 1 ≠ 0 :=
  ne_of_gt (lt_of_lt_of_le zero_lt_one (le_max_right s 1))

/-- One entry of the neighbour mean: the kernel's "edge sum times the reciprocal of max(deg, 1)" is the reference's
    "edge sum over max(1, deg)". -/
theorem mean_entry (g s : EReal) : g * Ideal.div 1 (max s 1) = Ideal.div g (max 1 s) := by
  rw [max_comm 1 s, div_eq_mul_one_div g _ (clamp_ne_zero s)]

/-- The same with the constant spelt as the float pattern of 1.0 both programs print. -/
theorem mean_entry_bits (g s : EReal) :
    g * Ideal.div (Ideal.ofBits .f32 0x3F800000#32) (max s (Ideal.ofBits .f32 0x3F800000#32))
      = Ideal.div g (max (Ideal.ofBits .f32 0x3F800000#32) s) := by
  rw [Ideal.ofBits_one_f32]; exact mean_entry g s

end Cert.SageLaws

end
-- ==== Proof.Bridge.lean ====
/-
  Why the two programs compute the same array, over the extended reals.

  * Both run the SAME gather / scatter-add over the same edge lists, so the edge sums and the in-degrees are one
    function of their operands in both texts; it is never opened.
  * The neighbour mean: the kernel multiplies each node's edge sum by 1 / max(deg, 1); the reference divides it by
    max(1, deg). max is commutative, max(deg, 1) is never zero, and division by a nonzero extended real IS the product
    with its reciprocal — at the infinities too, so no finiteness of the inputs is needed.
  * A layer: the kernel adds the bias last, (x·Wself + h·Wneigh) + b; the reference adds it in the middle,
    (x·Wself + b) + h·Wneigh. Addition of extended reals is commutative and associative. The kernel's matrix products
    (operands rounded to bf16, zero accumulator, tile by tile) and the reference's are both the plain sum over the 96
    contracted features.
-/
import proofs.«141597_j16329465660094_1_alg».proof.Proof.Layer1Array
import proofs.«141597_j16329465660094_1_alg».proof.Proof.Layer2Array
import proofs.«141597_j16329465660094_1_alg».proof.Proof.Entry1
import proofs.«141597_j16329465660094_1_alg».proof.Proof.RefForm
import proofs.«141597_j16329465660094_1_alg».proof.Proof.SageLaws
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open scoped BigOperators

namespace Cert.SageBridge

open Cert.KernelIdeal Cert.KernelIdeal.Gen Cert.KernelIdeal.Sage

/-! ## The two programs apply the same gather / scatter-add -/

/-- The edge sum is one function in both programs' texts. -/
theorem edgeSum_same (x : (⟨Cert.KernelIdeal.S50000x96, .f32⟩ : BufTy).Contents (Elt Ideal)) (src dst : (⟨Cert.KernelIdeal.S800000, .i32⟩ : BufTy).Contents (Elt Ideal)) :
    edgeSumK (F := Ideal) x src dst = Cert.ReferenceIdeal.Sage.edgeSum (F := Ideal) x src dst := rfl

/-- So is the in-degree. -/
theorem inDeg_same (dst : (⟨Cert.KernelIdeal.S800000, .i32⟩ : BufTy).Contents (Elt Ideal)) :
    inDegK (F := Ideal) dst = Cert.ReferenceIdeal.Sage.inDeg (F := Ideal) dst := rfl

/-! ## A per-node value spread along a node's 96 features -/

/-- A vector over the nodes, made a column and stretched along the features, reads at (n, j) the node's value. -/
theorem perNode_at {α : Type} (h1 : Cert.KernelIdeal.S50000.BroadcastsInDim Cert.KernelIdeal.S50000x1 ![0])
    (h2 : Cert.KernelIdeal.S50000x1.BroadcastsInDim Cert.KernelIdeal.S50000x96 ![0, 1]) (v : Cert.KernelIdeal.S50000.Idx → α) (n : Fin 50000) (j : Fin 96) :
    broadcastInDim Cert.KernelIdeal.S50000x96 ![0, 1] h2 (broadcastInDim Cert.KernelIdeal.S50000x1 ![0] h1 v) (ix2 n j) = v (ix1 n) := by
  rw [broadcastInDim_apply ![0, 1] h2 _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])]
  exact broadcastInDim_apply ![0] h1 v (ix2 n (0 : Fin 1)) (ix1 n) (fun a => match a with
    | ⟨0, _⟩ => by show n.val = if (50000 : Nat) = 1 then 0 else n.val; rw [if_neg (by decide)])

/-- The host's quotient at an entry is the quotient of the entries. -/
theorem hostDiv_at {s : Shape} (a b : FVec Ideal s .f32) (i : s.Idx) : Host.divf a b i = Ideal.div (a i) (b i) := rfl

/-- A scalar constant stretched to any shape reads the constant's value everywhere. -/
theorem splat_at {t : Shape} (h : (⟨0, ![]⟩ : Shape).BroadcastsInDim t ![]) (w : BitVec 32) (i : t.Idx) :
    broadcastInDim t ![] h (constant (F := Ideal) (⟨0, ![]⟩ : Shape) .f32 w) i = Ideal.ofBits .f32 w := rfl

/-- THE NEIGHBOUR MEAN: the kernel's "edge sum times 1 / max(deg, 1)" is the reference's "edge sum over max(1, deg)",
    at every node and feature, for any feature array and any edge lists. -/
theorem mean_same (x : (⟨Cert.KernelIdeal.S50000x96, .f32⟩ : BufTy).Contents (Elt Ideal)) (src dst : (⟨Cert.KernelIdeal.S800000, .i32⟩ : BufTy).Contents (Elt Ideal)) :
    scaleRows (edgeSumK x src dst) (invDegK dst) = Cert.ReferenceIdeal.Sage.meanRef (F := Ideal) x src dst := by
  funext i
  obtain ⟨n, j, rfl⟩ : ∃ (n : Fin 50000) (j : Fin 96), i = ix2 n j := ⟨i 0, i 1, eq_ix2 i⟩
  unfold scaleRows Cert.ReferenceIdeal.Sage.meanRef
  rw [mulf_apply, perNode_at, hostDiv_at, perNode_at]
  unfold invDegK
  rw [hostDiv_at, maximumf_apply, maximumf_apply, id_eq]
  simp only [splat_at]
  rw [edgeSum_same, inDeg_same]
  exact Cert.SageLaws.mean_entry_bits _ _

/-! ## The layers -/

/-- LAYER 1: the kernel's (x·Wself + h·Wneigh) + b is the reference's (x·Wself + b) + h·Wneigh, entry by entry (addition
    of extended reals is commutative and associative), the bias row being the bias vector reshaped. -/
theorem layer1_same (X H : (⟨Cert.KernelIdeal.S50000x96, .f32⟩ : BufTy).Contents (Elt Ideal)) (Ws Wn : (⟨Cert.KernelIdeal.S96x96, .f32⟩ : BufTy).Contents (Elt Ideal)) (b : (⟨Cert.KernelIdeal.S96, .f32⟩ : BufTy).Contents (Elt Ideal)) :
    update1 X H Ws Wn (shapeCast Cert.KernelIdeal.S1x96 b shapeCasts_S96_S1x96) = Cert.ReferenceIdeal.Sage.sage1Ref (F := Ideal) X H Ws Wn b := by
  funext i
  obtain ⟨n, j, rfl⟩ : ∃ (n : Fin 50000) (j : Fin 96), i = ix2 n j := ⟨i 0, i 1, eq_ix2 i⟩
  rw [update1_at, Cert.ReferenceIdeal.Sage.sage1Ref_at]
  have hb : shapeCast Cert.KernelIdeal.S1x96 b shapeCasts_S96_S1x96 (ix2 0 j) = b (ix1 j) :=
    shapeCast_apply b shapeCasts_S96_S1x96 (ix2 0 j) (ix1 j) (by
      rw [Shape.rowMajor_val_one, Shape.rowMajor_val_two]; show j.val = 0 * 96 + j.val; omega)
  rw [hb, add_right_comm]

/-- LAYER 2 likewise (no clamp). -/
theorem layer2_same (X H : (⟨Cert.KernelIdeal.S50000x96, .f32⟩ : BufTy).Contents (Elt Ideal)) (Ws Wn : (⟨Cert.KernelIdeal.S96x32, .f32⟩ : BufTy).Contents (Elt Ideal)) (b : (⟨Cert.KernelIdeal.S32, .f32⟩ : BufTy).Contents (Elt Ideal)) :
    update2 X H Ws Wn (shapeCast Cert.KernelIdeal.S1x32 b shapeCasts_S32_S1x32) = Cert.ReferenceIdeal.Sage.sage2Ref (F := Ideal) X H Ws Wn b := by
  funext i
  obtain ⟨n, j, rfl⟩ : ∃ (n : Fin 50000) (j : Fin 32), i = ix2 n j := ⟨i 0, i 1, eq_ix2 i⟩
  rw [update2_at, Cert.ReferenceIdeal.Sage.sage2Ref_at]
  have hb : shapeCast Cert.KernelIdeal.S1x32 b shapeCasts_S32_S1x32 (ix2 0 j) = b (ix1 j) :=
    shapeCast_apply b shapeCasts_S32_S1x32 (ix2 0 j) (ix1 j) (by
      rw [Shape.rowMajor_val_one, Shape.rowMajor_val_two]; show j.val = 0 * 32 + j.val; omega)
  rw [hb, add_right_comm]

/-! ## The whole program -/

/-- The kernel's two layers, each over the kernel's own neighbour mean, are the reference's two layers. -/
theorem program_same (x : (⟨Cert.KernelIdeal.S50000x96, .f32⟩ : BufTy).Contents (Elt Ideal)) (W1 W2 : (⟨Cert.KernelIdeal.S96x96, .f32⟩ : BufTy).Contents (Elt Ideal)) (b1 : (⟨Cert.KernelIdeal.S96, .f32⟩ : BufTy).Contents (Elt Ideal)) (W4 W5 : (⟨Cert.KernelIdeal.S96x32, .f32⟩ : BufTy).Contents (Elt Ideal)) (b2 : (⟨Cert.KernelIdeal.S32, .f32⟩ : BufTy).Contents (Elt Ideal))
    (src dst : (⟨Cert.KernelIdeal.S800000, .i32⟩ : BufTy).Contents (Elt Ideal)) :
    update2 (update1 x (scaleRows (edgeSumK x src dst) (invDegK dst)) W1 W2 (shapeCast Cert.KernelIdeal.S1x96 b1 shapeCasts_S96_S1x96))
        (scaleRows (edgeSumK (update1 x (scaleRows (edgeSumK x src dst) (invDegK dst)) W1 W2 (shapeCast Cert.KernelIdeal.S1x96 b1 shapeCasts_S96_S1x96)) src dst) (invDegK dst))
        W4 W5 (shapeCast Cert.KernelIdeal.S1x32 b2 shapeCasts_S32_S1x32)
      = Cert.ReferenceIdeal.Sage.twoLayers (F := Ideal) x W1 W2 b1 W4 W5 b2 src dst := by
  unfold Cert.ReferenceIdeal.Sage.twoLayers
  rw [mean_same x src dst, layer1_same, mean_same, layer2_same]

end Cert.SageBridge

end
-- ==== Proof.lean ====
/-
  Two-layer GraphSAGE with mean aggregation over 50000 nodes and 800000 edges: a kernel that leaves the irregular
  gather / scatter-add to the host and fuses each layer's per-node update (two bf16 matrix products on tiles of 2000
  nodes, bias, and a clamp at zero after the first layer) into one pallas_call per layer — against a plain reference.

  The certificate: each program runs to completion without a fault and leaves its arguments unchanged (the kernel's
  two frames are its generated ones; the reference's is its generated run with the result dropped); the idealization
  rewrote nothing, so `preserves` is `True`; and over the extended reals both programs end with the same result array.
  That last claim is: the kernel's run with its result named (the write-backs of the second call), that result read
  back through both calls and both host stretches as a function of the nine arguments, the reference's generated run,
  and the equality of the two functions — max commutes, x / d = x · (1 / d) for d ≠ 0 with d = max(deg, 1) ≥ 1,
  addition reassociates, and a matrix product is the same sum however it is tiled. Index arrays are arbitrary: both
  programs hand them to the same gather and scatter-add, which are never opened; no finiteness of the inputs is used.
-/
import proofs.«141597_j16329465660094_1_alg».proof.Defs
import proofs.«141597_j16329465660094_1_alg».proof.Proof.Gen.Kernel
import proofs.«141597_j16329465660094_1_alg».proof.Proof.Gen.Kernel.Skeleton
import proofs.«141597_j16329465660094_1_alg».proof.Proof.Gen.Kernel.Launch
import proofs.«141597_j16329465660094_1_alg».proof.Proof.Gen.Kernel.Points
import proofs.«141597_j16329465660094_1_alg».proof.Proof.Gen.Kernel.Frame
import proofs.«141597_j16329465660094_1_alg».proof.Proof.Gen.KernelIdeal
import proofs.«141597_j16329465660094_1_alg».proof.Proof.Gen.KernelIdeal.Skeleton
import proofs.«141597_j16329465660094_1_alg».proof.Proof.Gen.KernelIdeal.Launch
import proofs.«141597_j16329465660094_1_alg».proof.Proof.Gen.KernelIdeal.Points
import proofs.«141597_j16329465660094_1_alg».proof.Proof.Gen.KernelIdeal.Frame
import proofs.«141597_j16329465660094_1_alg».proof.Proof.Gen.ReferenceIdeal
import proofs.«141597_j16329465660094_1_alg».proof.Proof.Gen.ReferenceIdeal.Run
import proofs.«141597_j16329465660094_1_alg».proof.Proof.Gen.Pre_finite_inputs
import proofs.«141597_j16329465660094_1_alg».proof.Proof.KernelRun
import proofs.«141597_j16329465660094_1_alg».proof.Proof.KernelValue
import proofs.«141597_j16329465660094_1_alg».proof.Proof.RefForm
import proofs.«141597_j16329465660094_1_alg».proof.Proof.Bridge
import Idealize.ShloMosaic.Adequacy
import Idealize.ShloMosaic.Init

noncomputable section

namespace Cert.Proof

open Idealize.ShloMosaic Idealize.SL.Sem

/-- Over the extended reals, from memories that agree on the nine arguments, both programs run and end with the same
    result array: the kernel's two fused layers of the arguments are the reference's two layers of them. -/
theorem algebraic : Cert.algebraic_KernelIdeal_ReferenceIdeal := by
  intro m ρ m' ρ' _ hagree
  refine ⟨fun c => Cert.KernelIdeal.Gen.W4 m ρ c (Proc.devRef .tc Cert.KernelIdeal.main_v37), Cert.KernelIdeal.SageRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  beta_reduce
  rw [Cert.ReferenceIdeal.Sage.result_is, Cert.KernelIdeal.Sage.result_is m ρ c, e0, e1, e2, e3, e4, e5, e6, e7, e8]
  exact (Cert.SageBridge.program_same _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
